-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x256 : Shape := ⟨4, ![16, 128, 128, 256]⟩
abbrev S_ : Shape := ⟨0, ![]⟩

class Facts : Prop where
  bcast_S_S16x128x128x256 : S_.BroadcastsInDim S16x128x128x256 (![] : Fin 0 → Fin S16x128x128x256.rank)
  reducesTo_S16x128x128x256_S_d0_1_2_3 : S16x128x128x256.ReducesTo [0, 1, 2, 3] S_
  h_S_ : 0 < S_.numel

variable [Facts]

def fn {F : FTy → Type} [FloatOps F] (main_arg0 : FVec F S16x128x128x256 .f32) : IVec S_ 1 :=
  let main_v0 : FVec F S16x128x128x256 .f32 := Host.absf main_arg0
  let main_cst : FVec F S_ .f32 := constant S_ .f32 0x7F800000#32
  let main_v1 : FVec F S16x128x128x256 .f32 := broadcastInDim S16x128x128x256 ![] bcast_S_S16x128x128x256 main_cst
  let main_v2 : IVec S16x128x128x256 1 := cmpf .olt main_v0 main_v1
  let main_c : IVec S_ 1 := constantI S_ 1 1#1
  let main_v3 : IVec S_ 1 := (fun x v => Host.reduce IntOp.andi x v reducesTo_S16x128x128x256_S_d0_1_2_3 h_S_) main_v2 main_c
  main_v3
-- ==== Kernel.lean ====
abbrev S16x128x128x256 : Shape := ⟨4, ![16, 128, 128, 256]⟩
abbrev S16x256x256x64 : Shape := ⟨4, ![16, 256, 256, 64]⟩
abbrev S1x16x128x256 : Shape := ⟨4, ![1, 16, 128, 256]⟩
abbrev S1x32x256x64 : Shape := ⟨4, ![1, 32, 256, 64]⟩
abbrev S1x16x128x64 : Shape := ⟨4, ![1, 16, 128, 64]⟩
abbrev S1x16x128x1x64 : Shape := ⟨5, ![1, 16, 128, 1, 64]⟩
abbrev S1x16x128x2x64 : Shape := ⟨5, ![1, 16, 128, 2, 64]⟩
abbrev S1x16x1x128x2x64 : Shape := ⟨6, ![1, 16, 1, 128, 2, 64]⟩
abbrev S1x16x2x128x2x64 : Shape := ⟨6, ![1, 16, 2, 128, 2, 64]⟩

abbrev nBuf : Space → Nat
  | .hbm => 2
  | .vmem => 4
  | .smem => 0
  | _ => 0

abbrev bufTy : (tb : Table) → Fin (tcTables nBuf tb) → BufTy
  | .hbm, ⟨0, _⟩ => ⟨S16x128x128x256, .f32⟩
  | .hbm, ⟨1, _⟩ => ⟨S16x256x256x64, .f32⟩
  | .local _ .vmem, ⟨0, _⟩ => ⟨S1x16x128x256, .f32⟩
  | .local _ .vmem, ⟨1, _⟩ => ⟨S1x16x128x256, .f32⟩
  | .local _ .vmem, ⟨2, _⟩ => ⟨S1x32x256x64, .f32⟩
  | .local _ .vmem, ⟨3, _⟩ => ⟨S1x32x256x64, .f32⟩
  | _, _ => ⟨S16x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x128x256_S1x16x128x256_0_0_0_0 : ∀ a, (![0, 0, 0, 0] : Fin 4 → Nat) a + S1x16x128x256.size a ≤ S1x16x128x256.size a
  h_S1x16x128x256 : 0 < S1x16x128x256.numel
  slices_S1x16x128x256_o0_0_0_0_S1x16x128x64 : S1x16x128x256.Slices ![0, 0, 0, 0] S1x16x128x64
  slices_S1x16x128x256_o0_0_0_64_S1x16x128x64 : S1x16x128x256.Slices ![0, 0, 0, 64] S1x16x128x64
  slices_S1x16x128x256_o0_0_0_128_S1x16x128x64 : S1x16x128x256.Slices ![0, 0, 0, 128] S1x16x128x64
  slices_S1x16x128x256_o0_0_0_192_S1x16x128x64 : S1x16x128x256.Slices ![0, 0, 0, 192] S1x16x128x64
  shapeCasts_S1x16x128x64_S1x16x128x1x64 : S1x16x128x64.ShapeCasts S1x16x128x1x64
  concatenates_S1x16x128x1x64_S1x16x128x1x64_S1x16x128x2x64_d3 : Shape.Concatenates [S1x16x128x1x64, S1x16x128x1x64] S1x16x128x2x64 3
  shapeCasts_S1x16x128x2x64_S1x16x1x128x2x64 : S1x16x128x2x64.ShapeCasts S1x16x1x128x2x64
  concatenates_S1x16x1x128x2x64_S1x16x1x128x2x64_S1x16x2x128x2x64_d2 : Shape.Concatenates [S1x16x1x128x2x64, S1x16x1x128x2x64] S1x16x2x128x2x64 2
  shapeCasts_S1x16x2x128x2x64_S1x32x256x64 : S1x16x2x128x2x64.ShapeCasts S1x32x256x64
  inb_S1x32x256x64_S1x32x256x64_0_0_0_0 : ∀ a, (![0, 0, 0, 0] : Fin 4 → Nat) a + S1x32x256x64.size a ≤ S1x32x256x64.size a
  h_S1x32x256x64 : 0 < S1x32x256x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x256.size a ≤ S16x128x128x256.size a
  hwx0_0 : ∀ i : grid0.Coords, EltTy.bits .f32 = 32 ∨ (Rect.block (s := S16x128x128x256) S1x16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256x64.size a ≤ S16x256x256x64.size a
  hwx0_1 : ∀ i : grid0.Coords, EltTy.bits .f32 = 32 ∨ (Rect.block (s := S16x256x256x64) S1x32x256x64.size (cc0_transform_1 i) (hinb0_1 i)).WholeWords (EltTy.packing .f32)

variable [Facts₀]

abbrev win0_0 : Pipeline.Window sig grid0 :=
  Pipeline.Window.ofSpec (Memref.whole main_arg0) S1x16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x256x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x256 : Shape := ⟨4, ![16, 128, 128, 256]⟩
abbrev S16x128x128x64 : Shape := ⟨4, ![16, 128, 128, 64]⟩
abbrev S_ : Shape := ⟨0, ![]⟩
abbrev S16x128x128x1x64 : Shape := ⟨5, ![16, 128, 128, 1, 64]⟩
abbrev S16x128x128x2x64 : Shape := ⟨5, ![16, 128, 128, 2, 64]⟩
abbrev S16x128x1x128x2x64 : Shape := ⟨6, ![16, 128, 1, 128, 2, 64]⟩
abbrev S16x128x2x128x2x64 : Shape := ⟨6, ![16, 128, 2, 128, 2, 64]⟩
abbrev S16x256x256x64 : Shape := ⟨4, ![16, 256, 256, 64]⟩

abbrev nBuf : Space → Nat
  | .hbm => 39
  | .vmem => 0
  | .smem => 0
  | _ => 0

abbrev bufTy : (tb : Table) → Fin (tcTables nBuf tb) → BufTy
  | .hbm, ⟨0, _⟩ => ⟨S16x128x128x256, .f32⟩
  | .hbm, ⟨1, _⟩ => ⟨S16x128x128x64, .f32⟩
  | .hbm, ⟨2, _⟩ => ⟨S_, .f32⟩
  | .hbm, ⟨3, _⟩ => ⟨S16x128x128x64, .f32⟩
  | .hbm, ⟨4, _⟩ => ⟨S16x128x128x64, .f32⟩
  | .hbm, ⟨5, _⟩ => ⟨S16x128x128x64, .f32⟩
  | .hbm, ⟨6, _⟩ => ⟨S_, .f32⟩
  | .hbm, ⟨7, _⟩ => ⟨S16x128x128x64, .f32⟩
  | .hbm, ⟨8, _⟩ => ⟨S16x128x128x64, .f32⟩
  | .hbm, ⟨9, _⟩ => ⟨S16x128x128x64, .f32⟩
  | .hbm, ⟨10, _⟩ => ⟨S_, .f32⟩
  | .hbm, ⟨11, _⟩ => ⟨S16x128x128x64, .f32⟩
  | .hbm, ⟨12, _⟩ => ⟨S16x128x128x64, .f32⟩
  | .hbm, ⟨13, _⟩ => ⟨S16x128x128x64, .f32⟩
  | .hbm, ⟨14, _⟩ => ⟨S_, .f32⟩
  | .hbm, ⟨15, _⟩ => ⟨S16x128x128x64, .f32⟩
  | .hbm, ⟨16, _⟩ => ⟨S16x128x128x64, .f32⟩
  | .hbm, ⟨17, _⟩ => ⟨S16x128x128x64, .f32⟩
  | .hbm, ⟨18, _⟩ => ⟨S16x128x128x64, .f32⟩
  | .hbm, ⟨19, _⟩ => ⟨S16x128x128x64, .f32⟩
  | .hbm, ⟨20, _⟩ => ⟨S16x128x128x64, .f32⟩
  | .hbm, ⟨21, _⟩ => ⟨S16x128x128x64, .f32⟩
  | .hbm, ⟨22, _⟩ => ⟨S16x128x128x64, .f32⟩
  | .hbm, ⟨23, _⟩ => ⟨S16x128x128x64, .f32⟩
  | .hbm, ⟨24, _⟩ => ⟨S16x128x128x64, .f32⟩
  | .hbm, ⟨25, _⟩ => ⟨S16x128x128x64, .f32⟩
  | .hbm, ⟨26, _⟩ => ⟨S16x128x128x64, .f32⟩
  | .hbm, ⟨27, _⟩ => ⟨S16x128x128x64, .f32⟩
  | .hbm, ⟨28, _⟩ => ⟨S16x128x128x64, .f32⟩
  | .hbm, ⟨29, _⟩ => ⟨S16x128x128x1x64, .f32⟩
  | .hbm, ⟨30, _⟩ => ⟨S16x128x128x1x64, .f32⟩
  | .hbm, ⟨31, _⟩ => ⟨S16x128x128x2x64, .f32⟩
  | .hbm, ⟨32, _⟩ => ⟨S16x128x128x1x64, .f32⟩
  | .hbm, ⟨33, _⟩ => ⟨S16x128x128x1x64, .f32⟩
  | .hbm, ⟨34, _⟩ => ⟨S16x128x128x2x64, .f32⟩
  | .hbm, ⟨35, _⟩ => ⟨S16x128x1x128x2x64, .f32⟩
  | .hbm, ⟨36, _⟩ => ⟨S16x128x1x128x2x64, .f32⟩
  | .hbm, ⟨37, _⟩ => ⟨S16x128x2x128x2x64, .f32⟩
  | .hbm, ⟨38, _⟩ => ⟨S16x256x256x64, .f32⟩
  | _, _ => ⟨S16x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]

class Facts₀ : Prop where
  slices_S16x128x128x256_S16x128x128x64_0_0_0_0 : S16x128x128x256.Slices ![0, 0, 0, 0] S16x128x128x64
  bcast_S_S16x128x128x64 : S_.BroadcastsInDim S16x128x128x64 (![] : Fin 0 → Fin S16x128x128x64.rank)
  slices_S16x128x128x256_S16x128x128x64_0_0_0_64 : S16x128x128x256.Slices ![0, 0, 0, 64] S16x128x128x64
  slices_S16x128x128x256_S16x128x128x64_0_0_0_128 : S16x128x128x256.Slices ![0, 0, 0, 128] S16x128x128x64
  slices_S16x128x128x256_S16x128x128x64_0_0_0_192 : S16x128x128x256.Slices ![0, 0, 0, 192] S16x128x128x64
  bcast_S16x128x128x64_S16x128x128x1x64_0_1_2_4 : S16x128x128x64.BroadcastsInDim S16x128x128x1x64 (![0, 1, 2, 4] : Fin 4 → Fin S16x128x128x1x64.rank)
  concatenates_S16x128x128x1x64_S16x128x128x1x64_S16x128x128x2x64_d3 : Shape.Concatenates [S16x128x128x1x64, S16x128x128x1x64] S16x128x128x2x64 3
  bcast_S16x128x128x2x64_S16x128x1x128x2x64_0_1_3_4_5 : S16x128x128x2x64.BroadcastsInDim S16x128x1x128x2x64 (![0, 1, 3, 4, 5] : Fin 5 → Fin S16x128x1x128x2x64.rank)
  concatenates_S16x128x1x128x2x64_S16x128x1x128x2x64_S16x128x2x128x2x64_d2 : Shape.Concatenates [S16x128x1x128x2x64, S16x128x1x128x2x64] S16x128x2x128x2x64 2
  shapeCasts_S16x128x2x128x2x64_S16x256x256x64 : S16x128x2x128x2x64.ShapeCasts S16x256x256x64

variable [Facts₀]

class Facts : Prop extends Facts₀ where

variable [Facts]
-- ==== Proof.Haar.lean ====
/-
  One step of the inverse Haar wavelet transform, as ONE function of the input array, index by index.

  The input's last axis holds four sub-bands of 64 channels each: channel o + ch, for o = 0, 64, 128, 192, is sample
  ch of the sub-band at offset o.  Every sample is halved.  Writing a, b, c, d for the four halved samples at spatial
  position (h, w) and channel ch, the output at row 2h + p, column 2w + q, channel ch is

      p = 0, q = 0 :  ((a - b) - c) + d          p = 0, q = 1 :  ((a + b) - c) - d
      p = 1, q = 0 :  ((a - b) + c) - d          p = 1, q = 1 :  ((a + b) + c) + d

  with the operations grouped exactly as written.  Both programs compute these four expressions in this grouping, so
  nothing below asks for a law of the arithmetic: the definitions and lemmas are read at any float instance, and an
  infinite sample is as good as a finite one.

  Two arrangements of the same step are compared with it.  Each stacks the four results into a rank-6 array
  [B, H, 2, 128, 2, 64] (the two parities next to the coordinate they refine) and reads that array back in row-major
  order as [B, 2H, 256, 64]; `unitPair` reads one stacking at an index (the row-major re-reading is a matter of the
  literal extents, and is done where each arrangement is read).  The transform is stated for an input of H rows and an
  output of R ≤ 2H rows, so that one definition serves both a whole array and a block of rows of it; `haar_restrict`
  says that the transform of a block is the block of the transform.
-/
import Idealize.ShloMosaic.Lib.Pipeline.Value
import Idealize.ShloMosaic.Lib.ValueIdx
import Idealize.ShloMosaic.Lib.ValueIdxRank6

noncomputable section

namespace Cert.Haar

open Idealize.ShloMosaic Idealize.ShloMosaic.ValueIdx

variable {F : FTy → Type} [FloatOps F]

/-! ## The arithmetic of one output sample -/

/-- The constant one half, as both programs write it. -/
def half : F .f32 := FloatOps.ofBits .f32 0x3F000000#32

/-- One of four values, chosen by a row parity `p` and a column parity `q`. -/
def sel {α : Type} (p q : ℕ) (ee eo oe oo : α) : α :=
  if p = 0 then (if q = 0 then ee else eo) else (if q = 0 then oe else oo)

/-- Even row, even column: ((a - b) - c) + d. -/
def evenEven (a b c d : F .f32) : F .f32 := FloatOps.addf (FloatOps.subf (FloatOps.subf a b) c) d
/-- Even row, odd column: ((a + b) - c) - d. -/
def evenOdd (a b c d : F .f32) : F .f32 := FloatOps.subf (FloatOps.subf (FloatOps.addf a b) c) d
/-- Odd row, even column: ((a - b) + c) - d. -/
def oddEven (a b c d : F .f32) : F .f32 := FloatOps.subf (FloatOps.addf (FloatOps.subf a b) c) d
/-- Odd row, odd column: ((a + b) + c) + d. -/
def oddOdd (a b c d : F .f32) : F .f32 := FloatOps.addf (FloatOps.addf (FloatOps.addf a b) c) d

/-! ## Where an output sample's four inputs live -/

/-- The spatial position (row / 2, column / 2) and channel of an output index, in an array of 64 channels. -/
def cellOf {B H R : ℕ} (hR : R ≤ 2 * H) (i : (⟨4, ![B, R, 256, 64]⟩ : Shape).Idx) : (⟨4, ![B, H, 128, 64]⟩ : Shape).Idx :=
  ix4 (i 0) ⟨(i 1).val / 2, by have h : (i 1).val < R := (i 1).isLt; omega⟩
    ⟨(i 2).val / 2, by have h : (i 2).val < 256 := (i 2).isLt; omega⟩ (i 3)

/-- The input index of the sub-band at channel offset `o` for an output index: same batch, row / 2, column / 2,
    channel `o` + the output's channel. -/
def tap {B H R : ℕ} (hR : R ≤ 2 * H) (i : (⟨4, ![B, R, 256, 64]⟩ : Shape).Idx) (o : ℕ) (ho : o + 64 ≤ 256) :
    (⟨4, ![B, H, 128, 256]⟩ : Shape).Idx :=
  ix4 (i 0) ⟨(i 1).val / 2, by have h : (i 1).val < R := (i 1).isLt; omega⟩
    ⟨(i 2).val / 2, by have h : (i 2).val < 256 := (i 2).isLt; omega⟩
    ⟨o + (i 3).val, by have h : (i 3).val < 64 := (i 3).isLt; omega⟩

/-- THE TRANSFORM: the output sample at `i` from the four halved input samples at its position, combined by the
    parities of its row and column. -/
def haar {B H R : ℕ} (hR : R ≤ 2 * H) (x : (⟨4, ![B, H, 128, 256]⟩ : Shape).Idx → F .f32) :
    (⟨4, ![B, R, 256, 64]⟩ : Shape).Idx → F .f32 := fun i =>
  sel ((i 1).val % 2) ((i 2).val % 2)
    (evenEven (FloatOps.mulf (x (tap hR i 0 (by omega))) half) (FloatOps.mulf (x (tap hR i 64 (by omega))) half)
      (FloatOps.mulf (x (tap hR i 128 (by omega))) half) (FloatOps.mulf (x (tap hR i 192 (by omega))) half))
    (evenOdd (FloatOps.mulf (x (tap hR i 0 (by omega))) half) (FloatOps.mulf (x (tap hR i 64 (by omega))) half)
      (FloatOps.mulf (x (tap hR i 128 (by omega))) half) (FloatOps.mulf (x (tap hR i 192 (by omega))) half))
    (oddEven (FloatOps.mulf (x (tap hR i 0 (by omega))) half) (FloatOps.mulf (x (tap hR i 64 (by omega))) half)
      (FloatOps.mulf (x (tap hR i 128 (by omega))) half) (FloatOps.mulf (x (tap hR i 192 (by omega))) half))
    (oddOdd (FloatOps.mulf (x (tap hR i 0 (by omega))) half) (FloatOps.mulf (x (tap hR i 64 (by omega))) half)
      (FloatOps.mulf (x (tap hR i 128 (by omega))) half) (FloatOps.mulf (x (tap hR i 192 (by omega))) half))

/-- The transform of a block is the block of the transform: if `xb` is `x` read through `eIn`, if `eOut` keeps the
    parities of rows and columns, and if the two embeddings commute with `tap`, then `haar xb` is `haar x` read
    through `eOut`. -/
theorem haar_restrict {B H R B' H' R' : ℕ} (hR : R ≤ 2 * H) (hR' : R' ≤ 2 * H')
    (x : (⟨4, ![B', H', 128, 256]⟩ : Shape).Idx → F .f32) (xb : (⟨4, ![B, H, 128, 256]⟩ : Shape).Idx → F .f32)
    (eIn : (⟨4, ![B, H, 128, 256]⟩ : Shape).Idx → (⟨4, ![B', H', 128, 256]⟩ : Shape).Idx)
    (eOut : (⟨4, ![B, R, 256, 64]⟩ : Shape).Idx → (⟨4, ![B', R', 256, 64]⟩ : Shape).Idx)
    (hx : ∀ z, xb z = x (eIn z))
    (hrow : ∀ y, (eOut y 1).val % 2 = (y 1).val % 2) (hcol : ∀ y, (eOut y 2).val % 2 = (y 2).val % 2)
    (htap : ∀ y o ho, eIn (tap hR y o ho) = tap hR' (eOut y) o ho) (y : (⟨4, ![B, R, 256, 64]⟩ : Shape).Idx) :
    haar hR xb y = haar hR' x (eOut y) := by
  unfold haar
  simp only [hx, htap, hrow, hcol]

/-! ## Reading the two layout steps -/

/-- A concatenation of two pieces of one shape, of extent 1 along the joined axis, read at an index: the first piece
    where the coordinate on that axis is 0, else the second, at the index with the same other coordinates. -/
theorem unitPair {α : Type} {t s : Shape} (a : Fin t.rank) (x₁ x₂ : s.Idx → α) (h : Shape.Concatenates [s, s] t a)
    (hr : s.rank = t.rank) (h1 : s.size (a.cast hr.symm) = 1) (h2 : t.size a = 2) (j : t.Idx) (i : s.Idx)
    (hi : ∀ b : Fin s.rank, b.cast hr ≠ a → (i b).val = (j (b.cast hr)).val) :
    concatenate t a [⟨s, x₁⟩, ⟨s, x₂⟩] h j = if (j a).val = 0 then x₁ i else x₂ i := by
  have hia : (i (a.cast hr.symm)).val = 0 := by
    have := (i (a.cast hr.symm)).isLt; omega
  by_cases hj : (j a).val = 0
  · rw [if_pos hj]
    refine concatenate_pair_apply_left a x₁ x₂ h j hr i fun b => ?_
    by_cases hb : b.cast hr = a
    · have e : b = a.cast hr.symm := Fin.ext (by have := congrArg Fin.val hb; simpa using this)
      rw [hb, e, hia, hj]
    · exact hi b hb
  · rw [if_neg hj]
    refine concatenate_pair_apply_right a x₁ x₂ h j hr hr i hi ?_
    have := (j a).isLt
    omega

end Cert.Haar

end
-- ==== Proof.KernelPayload.lean ====
/-
  What the kernel's body stores, read at an index of the output block.

  The body loads one block of 16 input rows (all 128 columns, all 256 channels), halves each of the four sub-bands,
  forms the four combinations (even/odd row × even/odd column) as arrays over [1, 16, 128, 64], and then only RE-LAYS
  them: each combination gets a unit axis after the column, the two column parities are joined along it, the result gets
  a unit axis after the row, the two row parities are joined along it, and the rank-6 array [1, 16, 2, 128, 2, 64] is
  read in row-major order as [1, 32, 256, 64].  Row-major position ((h·2 + p)·128 + w)·2 + q in the first is position
  (2h + p)·256 + (2w + q) in the second, so the stored block at row r, column s is the combination of parities
  (r mod 2, s mod 2) at position (r / 2, s / 2): the inverse Haar step of the block (`payload_apply`).
-/
import proofs.«160934_j45045617001000_1_alg».proof.Proof.Gen.KernelIdeal.Skeleton
import proofs.«160934_j45045617001000_1_alg».proof.Proof.Haar

noncomputable section

namespace Cert.KernelIdeal.Payload

open Cert.KernelIdeal Cert.KernelIdeal.Gen Idealize.ShloMosaic Idealize.ShloMosaic.ValueIdx Cert.Haar

variable {F : FTy → Type} [FloatOps F]

/-! ## The four combinations, as arrays over the block's positions -/

/-- The sub-band at channel offset `o` of the loaded block, halved. -/
def band (x0 : Vec F S1x16x128x256 .f32) (o : ℕ) (h : S1x16x128x256.Slices ![0, 0, 0, o] S1x16x128x64) :
    FVec F S1x16x128x64 .f32 :=
  mulf (extractStridedSlice S1x16x128x64 ![0, 0, 0, o] x0 h) (broadcast S1x16x128x64 (Scalar.ofBits .f32 0x3F000000#32))

/-- A halved sub-band at a position is the halved input sample of that sub-band there. -/
theorem band_apply (x0 : Vec F S1x16x128x256 .f32) (o : ℕ) (ho : o + 64 ≤ 256)
    (h : S1x16x128x256.Slices ![0, 0, 0, o] S1x16x128x64) (b0 : Fin 1) (hl : Fin 16) (wl : Fin 128) (ch : Fin 64) :
    band x0 o h (ix4 b0 hl wl ch) = FloatOps.mulf (x0 (ix4 b0 hl wl ⟨o + ch.val, by omega⟩)) half := by
  show FloatOps.mulf (extractStridedSlice S1x16x128x64 ![0, 0, 0, o] x0 h (ix4 b0 hl wl ch)) _ = _
  rw [extractStridedSlice_apply ![0, 0, 0, o] x0 h (ix4 b0 hl wl ch) (ix4 b0 hl wl ⟨o + ch.val, by omega⟩) (fun a => match a with
    | ⟨0, _⟩ => by show b0.val = 0 + b0.val; omega
    | ⟨1, _⟩ => by show hl.val = 0 + hl.val; omega
    | ⟨2, _⟩ => by show wl.val = 0 + wl.val; omega
    | ⟨3, _⟩ => by show o + ch.val = o + ch.val; rfl)]
  rfl

/-- Even row, even column, over the block. -/
def ee (x0 : Vec F S1x16x128x256 .f32) : FVec F S1x16x128x64 .f32 :=
  addf (subf (subf (band x0 0 slices_S1x16x128x256_o0_0_0_0_S1x16x128x64) (band x0 64 slices_S1x16x128x256_o0_0_0_64_S1x16x128x64))
    (band x0 128 slices_S1x16x128x256_o0_0_0_128_S1x16x128x64)) (band x0 192 slices_S1x16x128x256_o0_0_0_192_S1x16x128x64)
/-- Even row, odd column, over the block. -/
def eo (x0 : Vec F S1x16x128x256 .f32) : FVec F S1x16x128x64 .f32 :=
  subf (subf (addf (band x0 0 slices_S1x16x128x256_o0_0_0_0_S1x16x128x64) (band x0 64 slices_S1x16x128x256_o0_0_0_64_S1x16x128x64))
    (band x0 128 slices_S1x16x128x256_o0_0_0_128_S1x16x128x64)) (band x0 192 slices_S1x16x128x256_o0_0_0_192_S1x16x128x64)
/-- Odd row, even column, over the block. -/
def oe (x0 : Vec F S1x16x128x256 .f32) : FVec F S1x16x128x64 .f32 :=
  subf (addf (subf (band x0 0 slices_S1x16x128x256_o0_0_0_0_S1x16x128x64) (band x0 64 slices_S1x16x128x256_o0_0_0_64_S1x16x128x64))
    (band x0 128 slices_S1x16x128x256_o0_0_0_128_S1x16x128x64)) (band x0 192 slices_S1x16x128x256_o0_0_0_192_S1x16x128x64)
/-- Odd row, odd column, over the block. -/
def oo (x0 : Vec F S1x16x128x256 .f32) : FVec F S1x16x128x64 .f32 :=
  addf (addf (addf (band x0 0 slices_S1x16x128x256_o0_0_0_0_S1x16x128x64) (band x0 64 slices_S1x16x128x256_o0_0_0_64_S1x16x128x64))
    (band x0 128 slices_S1x16x128x256_o0_0_0_128_S1x16x128x64)) (band x0 192 slices_S1x16x128x256_o0_0_0_192_S1x16x128x64)

/-- The even-even combination at a position, from the four halved samples there. -/
theorem ee_apply (x0 : Vec F S1x16x128x256 .f32) (b0 : Fin 1) (hl : Fin 16) (wl : Fin 128) (ch : Fin 64) :
    ee x0 (ix4 b0 hl wl ch)
      = evenEven (FloatOps.mulf (x0 (ix4 b0 hl wl ⟨0 + ch.val, by omega⟩)) half) (FloatOps.mulf (x0 (ix4 b0 hl wl ⟨64 + ch.val, by omega⟩)) half)
          (FloatOps.mulf (x0 (ix4 b0 hl wl ⟨128 + ch.val, by omega⟩)) half) (FloatOps.mulf (x0 (ix4 b0 hl wl ⟨192 + ch.val, by omega⟩)) half) := by
  rw [← band_apply x0 0 (by omega) slices_S1x16x128x256_o0_0_0_0_S1x16x128x64, ← band_apply x0 64 (by omega) slices_S1x16x128x256_o0_0_0_64_S1x16x128x64,
    ← band_apply x0 128 (by omega) slices_S1x16x128x256_o0_0_0_128_S1x16x128x64, ← band_apply x0 192 (by omega) slices_S1x16x128x256_o0_0_0_192_S1x16x128x64]
  rfl

/-- The even-odd combination at a position. -/
theorem eo_apply (x0 : Vec F S1x16x128x256 .f32) (b0 : Fin 1) (hl : Fin 16) (wl : Fin 128) (ch : Fin 64) :
    eo x0 (ix4 b0 hl wl ch)
      = evenOdd (FloatOps.mulf (x0 (ix4 b0 hl wl ⟨0 + ch.val, by omega⟩)) half) (FloatOps.mulf (x0 (ix4 b0 hl wl ⟨64 + ch.val, by omega⟩)) half)
          (FloatOps.mulf (x0 (ix4 b0 hl wl ⟨128 + ch.val, by omega⟩)) half) (FloatOps.mulf (x0 (ix4 b0 hl wl ⟨192 + ch.val, by omega⟩)) half) := by
  rw [← band_apply x0 0 (by omega) slices_S1x16x128x256_o0_0_0_0_S1x16x128x64, ← band_apply x0 64 (by omega) slices_S1x16x128x256_o0_0_0_64_S1x16x128x64,
    ← band_apply x0 128 (by omega) slices_S1x16x128x256_o0_0_0_128_S1x16x128x64, ← band_apply x0 192 (by omega) slices_S1x16x128x256_o0_0_0_192_S1x16x128x64]
  rfl

/-- The odd-even combination at a position. -/
theorem oe_apply (x0 : Vec F S1x16x128x256 .f32) (b0 : Fin 1) (hl : Fin 16) (wl : Fin 128) (ch : Fin 64) :
    oe x0 (ix4 b0 hl wl ch)
      = oddEven (FloatOps.mulf (x0 (ix4 b0 hl wl ⟨0 + ch.val, by omega⟩)) half) (FloatOps.mulf (x0 (ix4 b0 hl wl ⟨64 + ch.val, by omega⟩)) half)
          (FloatOps.mulf (x0 (ix4 b0 hl wl ⟨128 + ch.val, by omega⟩)) half) (FloatOps.mulf (x0 (ix4 b0 hl wl ⟨192 + ch.val, by omega⟩)) half) := by
  rw [← band_apply x0 0 (by omega) slices_S1x16x128x256_o0_0_0_0_S1x16x128x64, ← band_apply x0 64 (by omega) slices_S1x16x128x256_o0_0_0_64_S1x16x128x64,
    ← band_apply x0 128 (by omega) slices_S1x16x128x256_o0_0_0_128_S1x16x128x64, ← band_apply x0 192 (by omega) slices_S1x16x128x256_o0_0_0_192_S1x16x128x64]
  rfl

/-- The odd-odd combination at a position. -/
theorem oo_apply (x0 : Vec F S1x16x128x256 .f32) (b0 : Fin 1) (hl : Fin 16) (wl : Fin 128) (ch : Fin 64) :
    oo x0 (ix4 b0 hl wl ch)
      = oddOdd (FloatOps.mulf (x0 (ix4 b0 hl wl ⟨0 + ch.val, by omega⟩)) half) (FloatOps.mulf (x0 (ix4 b0 hl wl ⟨64 + ch.val, by omega⟩)) half)
          (FloatOps.mulf (x0 (ix4 b0 hl wl ⟨128 + ch.val, by omega⟩)) half) (FloatOps.mulf (x0 (ix4 b0 hl wl ⟨192 + ch.val, by omega⟩)) half) := by
  rw [← band_apply x0 0 (by omega) slices_S1x16x128x256_o0_0_0_0_S1x16x128x64, ← band_apply x0 64 (by omega) slices_S1x16x128x256_o0_0_0_64_S1x16x128x64,
    ← band_apply x0 128 (by omega) slices_S1x16x128x256_o0_0_0_128_S1x16x128x64, ← band_apply x0 192 (by omega) slices_S1x16x128x256_o0_0_0_192_S1x16x128x64]
  rfl

/-- The two column parities of one row parity, joined: a unit axis after the column, the join along it, a unit axis
    after the row. -/
def rowPair (a b : FVec F S1x16x128x64 .f32) : FVec F S1x16x1x128x2x64 .f32 :=
  shapeCast S1x16x1x128x2x64 (concatenate S1x16x128x2x64 3
      [⟨S1x16x128x1x64, shapeCast S1x16x128x1x64 a shapeCasts_S1x16x128x64_S1x16x128x1x64⟩,
       ⟨S1x16x128x1x64, shapeCast S1x16x128x1x64 b shapeCasts_S1x16x128x64_S1x16x128x1x64⟩]
      concatenates_S1x16x128x1x64_S1x16x128x1x64_S1x16x128x2x64_d3) shapeCasts_S1x16x128x2x64_S1x16x1x128x2x64

/-- THE PAYLOAD is the four combinations re-laid: the two row pairs joined along the axis after the row, read in
    row-major order as the output block. -/
theorem payload_eq (x0 : Vec F S1x16x128x256 .f32) :
    k0_pay1 x0 = shapeCast S1x32x256x64 (concatenate S1x16x2x128x2x64 2
      [⟨S1x16x1x128x2x64, rowPair (ee x0) (eo x0)⟩, ⟨S1x16x1x128x2x64, rowPair (oe x0) (oo x0)⟩]
      concatenates_S1x16x1x128x2x64_S1x16x1x128x2x64_S1x16x2x128x2x64_d2) shapeCasts_S1x16x2x128x2x64_S1x32x256x64 := rfl

/-! ## The re-laying read at an index -/

/-- A row pair at position (h, w), column parity q: the first array where q = 0, else the second. -/
theorem rowPair_apply (a b : FVec F S1x16x128x64 .f32) (b0 : Fin 1) (hl : Fin 16) (wl : Fin 128) (q : Fin 2) (ch : Fin 64) :
    rowPair a b (ix6 b0 hl 0 wl q ch) = if q.val = 0 then a (ix4 b0 hl wl ch) else b (ix4 b0 hl wl ch) := by
  have hb := b0.isLt
  have hh := hl.isLt
  have hw := wl.isLt
  have hq := q.isLt
  have hc := ch.isLt
  unfold rowPair
  refine (shapeCast_apply _ shapeCasts_S1x16x128x2x64_S1x16x1x128x2x64 _ (ix5 b0 hl wl q ch) ?_).trans ?_
  · rw [Shape.rowMajor_val_five, Shape.rowMajor_val_six]
    show (((b0.val * 16 + hl.val) * 128 + wl.val) * 2 + q.val) * 64 + ch.val
      = ((((b0.val * 16 + hl.val) * 1 + 0) * 128 + wl.val) * 2 + q.val) * 64 + ch.val
    omega
  refine (unitPair 3 _ _ concatenates_S1x16x128x1x64_S1x16x128x1x64_S1x16x128x2x64_d3 rfl rfl rfl
    (ix5 b0 hl wl q ch) (ix5 b0 hl wl 0 ch) (fun b hb => ?_)).trans ?_
  · match b with
    | ⟨0, _⟩ => rfl
    | ⟨1, _⟩ => rfl
    | ⟨2, _⟩ => rfl
    | ⟨3, _⟩ => exact absurd rfl hb
    | ⟨4, _⟩ => rfl
  have ea : shapeCast S1x16x128x1x64 a shapeCasts_S1x16x128x64_S1x16x128x1x64 (ix5 b0 hl wl 0 ch) = a (ix4 b0 hl wl ch) :=
    shapeCast_apply _ _ _ _ (by
      rw [Shape.rowMajor_val_four, Shape.rowMajor_val_five]
      show ((b0.val * 16 + hl.val) * 128 + wl.val) * 64 + ch.val
        = (((b0.val * 16 + hl.val) * 128 + wl.val) * 1 + 0) * 64 + ch.val
      omega)
  have eb : shapeCast S1x16x128x1x64 b shapeCasts_S1x16x128x64_S1x16x128x1x64 (ix5 b0 hl wl 0 ch) = b (ix4 b0 hl wl ch) :=
    shapeCast_apply _ _ _ _ (by
      rw [Shape.rowMajor_val_four, Shape.rowMajor_val_five]
      show ((b0.val * 16 + hl.val) * 128 + wl.val) * 64 + ch.val
        = (((b0.val * 16 + hl.val) * 128 + wl.val) * 1 + 0) * 64 + ch.val
      omega)
  rw [ea, eb]

/-- THE PAYLOAD AT AN INDEX of the output block is the inverse Haar step of the loaded block there. -/
theorem payload_apply (x0 : Vec F S1x16x128x256 .f32) (y : S1x32x256x64.Idx) :
    k0_pay1 x0 y = haar (B := 1) (H := 16) (R := 32) (by omega) x0 y := by
  have y0 : (y 0).val < 1 := (y 0).isLt
  have y1 : (y 1).val < 32 := (y 1).isLt
  have y2 : (y 2).val < 256 := (y 2).isLt
  have y3 : (y 3).val < 64 := (y 3).isLt
  rw [payload_eq]
  refine (shapeCast_apply _ shapeCasts_S1x16x2x128x2x64_S1x32x256x64 y
    (ix6 (⟨(y 0).val, y0⟩ : Fin 1) (⟨(y 1).val / 2, by omega⟩ : Fin 16) (⟨(y 1).val % 2, by omega⟩ : Fin 2)
      (⟨(y 2).val / 2, by omega⟩ : Fin 128) (⟨(y 2).val % 2, by omega⟩ : Fin 2) (⟨(y 3).val, y3⟩ : Fin 64)) ?_).trans ?_
  · rw [Shape.rowMajor_val_six, Shape.rowMajor_val_four]
    show (((((y 0).val * 16 + (y 1).val / 2) * 2 + (y 1).val % 2) * 128 + (y 2).val / 2) * 2 + (y 2).val % 2) * 64 + (y 3).val
      = (((y 0).val * 32 + (y 1).val) * 256 + (y 2).val) * 64 + (y 3).val
    omega
  refine (unitPair 2 _ _ concatenates_S1x16x1x128x2x64_S1x16x1x128x2x64_S1x16x2x128x2x64_d2 rfl rfl rfl _
    (ix6 (⟨(y 0).val, y0⟩ : Fin 1) (⟨(y 1).val / 2, by omega⟩ : Fin 16) (0 : Fin 1)
      (⟨(y 2).val / 2, by omega⟩ : Fin 128) (⟨(y 2).val % 2, by omega⟩ : Fin 2) (⟨(y 3).val, y3⟩ : Fin 64)) (fun b hb => ?_)).trans ?_
  · match b with
    | ⟨0, _⟩ => rfl
    | ⟨1, _⟩ => rfl
    | ⟨2, _⟩ => exact absurd rfl hb
    | ⟨3, _⟩ => rfl
    | ⟨4, _⟩ => rfl
    | ⟨5, _⟩ => rfl
  rw [rowPair_apply, rowPair_apply, ee_apply, eo_apply, oe_apply, oo_apply]
  rfl

end Cert.KernelIdeal.Payload

end
-- ==== Proof.KernelValue.lean ====
/-
  From the blocks to the whole array: after the kernel's run its result array is the inverse Haar step of its argument.

  Grid point (b, g) loads rows 16g … 16g + 15 of batch b of the input (all columns, all channels) and writes back rows
  32g … 32g + 31 of batch b of the output.  Halving a row index of the output block, 32g + r, gives 16g + r / 2, a row
  of the input block, and 32g + r has the parity of r; columns and channels are not tiled.  So what a point writes back
  — the inverse Haar step of its input block (the payload read at an index) — is that block of the inverse Haar step
  of the whole input (`flushed_eq`).  The 16 × 8 output blocks tile the output array (`cover`), hence the array after
  the run is the transform of the input everywhere (`final`, `run`).
-/
import proofs.«160934_j45045617001000_1_alg».proof.Proof.Gen.KernelIdeal.Value
import proofs.«160934_j45045617001000_1_alg».proof.Proof.KernelPayload

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Haar
open Idealize.ShloMosaic.Pipeline (Dat)

variable {F : FTy → Type} [FloatOps F]
variable (m : (ℓ : Loc nD τ sig) → Buf (Elt F) ℓ) (ρ : Dev nD → PrngReg)

/-- The input array as the region finds it, at its literal type. -/
abbrev xarr (c : Dev nD) : Vec F S16x128x128x256 .f32 := V m c main_arg0
/-- The input block of grid point `t`, at its literal type. -/
abbrev xblk (c : Dev nD) (t : Fin cfg0.N) : Vec F S1x16x128x256 .f32 := iblk m c 0 t

theorem offsets_zero : (![0, 0, 0, 0] : Fin 4 → Nat) = fun _ => 0 := funext fun a => by fin_cases a <;> rfl

/-- The two index maps, decided over the 128 grid points: input and output blocks have the same batch and row-block
    index, neither is tiled along columns or channels, and the output's indices stay in range. -/
theorem index_maps : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 15 ∧ win0_1.index t (1 : Fin 4) ≤ 7 :=
  (by decide +kernel : ∀ t : Fin grid0.N, _)

/-- Every (batch, row block) pair is some grid point's output block. -/
theorem index_onto : ∀ (q0 : Fin 16) (q1 : Fin 8), ∃ t : Fin cfg0.N, win0_1.index t = ![q0.val, q1.val, 0, 0] :=
  (by decide +kernel : ∀ (q0 : Fin 16) (q1 : Fin 8), ∃ t : Fin grid0.N, win0_1.index t = ![q0.val, q1.val, 0, 0])

/-- WHAT POINT `t` WRITES BACK is block `t` of the inverse Haar step of the whole input array. -/
theorem flushed_eq (c : Dev nD) (t : Fin cfg0.N) :
    (dats m 0 c).flushed 1 t
      = ((cfg0.win 1).blk t).view.read (Elt F) (haar (B := 16) (H := 128) (R := 256) (by omega) (xarr m c)) := by
  rw [flushed1]
  unfold out0_1
  rw [View.canon_unit_zero offsets_zero]
  simp only [View.ld_unit_zero (S := S1x16x128x256) offsets_zero]
  obtain ⟨e0, e1, e2, e3, e4, e5, e6, e7⟩ := index_maps t
  funext y
  show k0_pay1 (xblk m c t) y
    = haar (B := 16) (H := 128) (R := 256) (by omega) (xarr m c) (((cfg0.win 1).blk t).view.emb y)
  rw [Payload.payload_apply]
  refine haar_restrict (B := 1) (H := 16) (R := 32) (B' := 16) (H' := 128) (R' := 256) (by omega) (by omega)
    (xarr m c) (xblk m c t) (((cfg0.win 0).blk t).view.emb) (((cfg0.win 1).blk t).view.emb) (fun z => rfl) (fun y => ?_) (fun y => ?_)
    (fun y o ho => ?_) y
  · show (win0_1.index t (1 : Fin 4) * 32 + 1 * (y 1).val) % 2 = (y 1).val % 2
    omega
  · show (win0_1.index t (2 : Fin 4) * 256 + 1 * (y 2).val) % 2 = (y 2).val % 2
    omega
  · have y1 : (y 1).val < 32 := (y 1).isLt
    have y2 : (y 2).val < 256 := (y 2).isLt
    funext a; apply Fin.ext
    match a with
    | ⟨0, _⟩ =>
      show win0_0.index t (0 : Fin 4) * 1 + 1 * (y 0).val = win0_1.index t (0 : Fin 4) * 1 + 1 * (y 0).val
      omega
    | ⟨1, _⟩ =>
      show win0_0.index t (1 : Fin 4) * 16 + 1 * ((y 1).val / 2) = (win0_1.index t (1 : Fin 4) * 32 + 1 * (y 1).val) / 2
      omega
    | ⟨2, _⟩ =>
      show win0_0.index t (2 : Fin 4) * 128 + 1 * ((y 2).val / 2) = (win0_1.index t (2 : Fin 4) * 256 + 1 * (y 2).val) / 2
      omega
    | ⟨3, _⟩ =>
      show win0_0.index t (3 : Fin 4) * 256 + 1 * (o + (y 3).val) = o + (win0_1.index t (3 : Fin 4) * 64 + 1 * (y 3).val)
      omega

/-- An index of the output array is in point `t`'s block iff each coordinate is in the block's range on its axis. -/
theorem mem_blk (t : Fin cfg0.N) (i : S16x256x256x64.Idx) :
    i ∈ ((cfg0.win 1).blk t).view.set ↔ ∀ a : Fin 4, win0_1.index t a * S1x32x256x64.size a ≤ (i a).val
      ∧ (i a).val < win0_1.index t a * S1x32x256x64.size a + S1x32x256x64.size a := by
  show i ∈ ((View.whole main_v0).slice (win0_1.rect t)).set ↔ _
  rw [View.set_slice_whole, Rect.mem_set_unit]
  exact Iff.rfl

/-- Every index of the output array lies in the block of the point with its batch and its row block (row / 32). -/
theorem cover (i : S16x256x256x64.Idx) :
    ∃ t : Fin cfg0.N, (cfg0.win 1).flush t = true ∧ i ∈ ((cfg0.win 1).blk t).view.set := by
  have hi0 : (i 0).val < 16 := (i 0).isLt
  have hi1 : (i 1).val < 256 := (i 1).isLt
  have hi2 : (i 2).val < 256 := (i 2).isLt
  have hi3 : (i 3).val < 64 := (i 3).isLt
  obtain ⟨t, ht⟩ := index_onto ⟨(i 0).val, hi0⟩ ⟨(i 1).val / 32, by omega⟩
  have q0 : win0_1.index t (0 : Fin 4) = (i 0).val := congrFun ht 0
  have q1 : win0_1.index t (1 : Fin 4) = (i 1).val / 32 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 32 ≤ (i 1).val ∧ (i 1).val < win0_1.index t (1 : Fin 4) * 32 + 32
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 64 ≤ (i 3).val ∧ (i 3).val < win0_1.index t (3 : Fin 4) * 64 + 64
    omega

/-- THE OUTPUT ARRAY after the run is the inverse Haar step of the input array. -/
theorem final (c : Dev nD) :
    (dats m 0 c).arrAt 1 cfg0.N = haar (B := 16) (H := 128) (R := 256) (by omega) (xarr m c) :=
  (dats m 0 c).arrAt_eq_of_cover 1 (haar (B := 16) (H := 128) (R := 256) (by omega) (xarr m c))
    (fun t _ => flushed_eq m c t) cover

/-- The kernel's run: it ends with the result array at the inverse Haar step of the argument, the argument unchanged. -/
theorem run : θ_run defs (onTc (τ := τ) (main (F := F))) ⟨m, fun _ => 0, ρ⟩ fun r => ∀ c : Dev nD,
      r.2.mem ((c : Thread nD τ).loc main_v0)
        = haar (B := 16) (H := 128) (R := 256) (by omega) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.RefValue.lean ====
/-
  What the reference computes, read at an index of its result.

  The reference halves the four sub-bands of the whole input, forms the four combinations (even/odd row × even/odd
  column) as arrays over [16, 128, 128, 64], gives each a unit axis after the column and joins the two column parities
  along it, gives each of the two results a unit axis after the row and joins the two row parities along it, and
  reshapes the rank-6 array [16, 128, 2, 128, 2, 64] to [16, 256, 256, 64].  A reshape keeps row-major positions, and
  position ((h·2 + p)·128 + w)·2 + q of the first is position (2h + p)·256 + (2w + q) of the second: the result at row r,
  column s is the combination of parities (r mod 2, s mod 2) at position (r / 2, s / 2) — the inverse Haar step of the
  input (`result_eq`).
-/
import proofs.«160934_j45045617001000_1_alg».proof.Proof.Gen.ReferenceIdeal.Read
import proofs.«160934_j45045617001000_1_alg».proof.Proof.Haar

noncomputable section

namespace Cert.ReferenceIdeal.RefValue

open Cert.ReferenceIdeal Cert.ReferenceIdeal.Gen Cert.ReferenceIdeal.Read Idealize.ShloMosaic Idealize.ShloMosaic.ValueIdx Cert.Haar

variable {F : FTy → Type} [FloatOps F]

/-! ## The halved sub-bands and the four combinations at a position -/

theorem band0 (x : (⟨S16x128x128x256, .f32⟩ : BufTy).Contents (Elt F)) (b : Fin 16) (h w : Fin 128) (ch : Fin 64) :
    val_main_v2 (F := F) x (ix4 b h w ch) = FloatOps.mulf (x (ix4 b h w ⟨0 + ch.val, by omega⟩)) half := by
  rw [val_main_v2_apply, val_main_v0_apply, val_main_v1_apply, val_main_cst_apply]
  have e : idx_main_v0 (ix4 b h w ch) = ix4 b h w ⟨0 + ch.val, by omega⟩ := funext fun a => match a with
    | ⟨0, _⟩ => rfl
    | ⟨1, _⟩ => rfl
    | ⟨2, _⟩ => rfl
    | ⟨3, _⟩ => Fin.ext (by show ch.val = 0 + ch.val; omega)
  rw [e]; rfl

theorem band1 (x : (⟨S16x128x128x256, .f32⟩ : BufTy).Contents (Elt F)) (b : Fin 16) (h w : Fin 128) (ch : Fin 64) :
    val_main_v5 (F := F) x (ix4 b h w ch) = FloatOps.mulf (x (ix4 b h w ⟨64 + ch.val, by omega⟩)) half := by
  rw [val_main_v5_apply, val_main_v3_apply, val_main_v4_apply, val_main_cst_0_apply]
  have e : idx_main_v3 (ix4 b h w ch) = ix4 b h w ⟨64 + ch.val, by omega⟩ := funext fun a => match a with
    | ⟨0, _⟩ => rfl
    | ⟨1, _⟩ => rfl
    | ⟨2, _⟩ => rfl
    | ⟨3, _⟩ => rfl
  rw [e]; rfl

theorem band2 (x : (⟨S16x128x128x256, .f32⟩ : BufTy).Contents (Elt F)) (b : Fin 16) (h w : Fin 128) (ch : Fin 64) :
    val_main_v8 (F := F) x (ix4 b h w ch) = FloatOps.mulf (x (ix4 b h w ⟨128 + ch.val, by omega⟩)) half := by
  rw [val_main_v8_apply, val_main_v6_apply, val_main_v7_apply, val_main_cst_1_apply]
  have e : idx_main_v6 (ix4 b h w ch) = ix4 b h w ⟨128 + ch.val, by omega⟩ := funext fun a => match a with
    | ⟨0, _⟩ => rfl
    | ⟨1, _⟩ => rfl
    | ⟨2, _⟩ => rfl
    | ⟨3, _⟩ => rfl
  rw [e]; rfl

theorem band3 (x : (⟨S16x128x128x256, .f32⟩ : BufTy).Contents (Elt F)) (b : Fin 16) (h w : Fin 128) (ch : Fin 64) :
    val_main_v11 (F := F) x (ix4 b h w ch) = FloatOps.mulf (x (ix4 b h w ⟨192 + ch.val, by omega⟩)) half := by
  rw [val_main_v11_apply, val_main_v9_apply, val_main_v10_apply, val_main_cst_2_apply]
  have e : idx_main_v9 (ix4 b h w ch) = ix4 b h w ⟨192 + ch.val, by omega⟩ := funext fun a => match a with
    | ⟨0, _⟩ => rfl
    | ⟨1, _⟩ => rfl
    | ⟨2, _⟩ => rfl
    | ⟨3, _⟩ => rfl
  rw [e]; rfl

/-- Even row, even column. -/
theorem ee_apply (x : (⟨S16x128x128x256, .f32⟩ : BufTy).Contents (Elt F)) (b : Fin 16) (h w : Fin 128) (ch : Fin 64) :
    val_main_v14 (F := F) x (ix4 b h w ch)
      = evenEven (FloatOps.mulf (x (ix4 b h w ⟨0 + ch.val, by omega⟩)) half) (FloatOps.mulf (x (ix4 b h w ⟨64 + ch.val, by omega⟩)) half)
          (FloatOps.mulf (x (ix4 b h w ⟨128 + ch.val, by omega⟩)) half) (FloatOps.mulf (x (ix4 b h w ⟨192 + ch.val, by omega⟩)) half) := by
  rw [val_main_v14_apply, val_main_v13_apply, val_main_v12_apply, band0, band1, band2, band3]; rfl

/-- Even row, odd column. -/
theorem eo_apply (x : (⟨S16x128x128x256, .f32⟩ : BufTy).Contents (Elt F)) (b : Fin 16) (h w : Fin 128) (ch : Fin 64) :
    val_main_v20 (F := F) x (ix4 b h w ch)
      = evenOdd (FloatOps.mulf (x (ix4 b h w ⟨0 + ch.val, by omega⟩)) half) (FloatOps.mulf (x (ix4 b h w ⟨64 + ch.val, by omega⟩)) half)
          (FloatOps.mulf (x (ix4 b h w ⟨128 + ch.val, by omega⟩)) half) (FloatOps.mulf (x (ix4 b h w ⟨192 + ch.val, by omega⟩)) half) := by
  rw [val_main_v20_apply, val_main_v19_apply, val_main_v18_apply, band0, band1, band2, band3]; rfl

/-- Odd row, even column. -/
theorem oe_apply (x : (⟨S16x128x128x256, .f32⟩ : BufTy).Contents (Elt F)) (b : Fin 16) (h w : Fin 128) (ch : Fin 64) :
    val_main_v17 (F := F) x (ix4 b h w ch)
      = oddEven (FloatOps.mulf (x (ix4 b h w ⟨0 + ch.val, by omega⟩)) half) (FloatOps.mulf (x (ix4 b h w ⟨64 + ch.val, by omega⟩)) half)
          (FloatOps.mulf (x (ix4 b h w ⟨128 + ch.val, by omega⟩)) half) (FloatOps.mulf (x (ix4 b h w ⟨192 + ch.val, by omega⟩)) half) := by
  rw [val_main_v17_apply, val_main_v16_apply, val_main_v15_apply, band0, band1, band2, band3]; rfl

/-- Odd row, odd column. -/
theorem oo_apply (x : (⟨S16x128x128x256, .f32⟩ : BufTy).Contents (Elt F)) (b : Fin 16) (h w : Fin 128) (ch : Fin 64) :
    val_main_v23 (F := F) x (ix4 b h w ch)
      = oddOdd (FloatOps.mulf (x (ix4 b h w ⟨0 + ch.val, by omega⟩)) half) (FloatOps.mulf (x (ix4 b h w ⟨64 + ch.val, by omega⟩)) half)
          (FloatOps.mulf (x (ix4 b h w ⟨128 + ch.val, by omega⟩)) half) (FloatOps.mulf (x (ix4 b h w ⟨192 + ch.val, by omega⟩)) half) := by
  rw [val_main_v23_apply, val_main_v22_apply, val_main_v21_apply, band0, band1, band2, band3]; rfl

/-! ## The joins read at an index -/

/-- The even rows' two column parities, joined: the even-even combination where q = 0, else the even-odd one. -/
theorem evenRows_apply (x : (⟨S16x128x128x256, .f32⟩ : BufTy).Contents (Elt F)) (b : Fin 16) (h w : Fin 128) (q : Fin 2) (ch : Fin 64) :
    val_main_v26 (F := F) x (ix5 b h w q ch)
      = if q.val = 0 then val_main_v14 (F := F) x (ix4 b h w ch) else val_main_v20 (F := F) x (ix4 b h w ch) := by
  unfold val_main_v26
  refine (unitPair 3 _ _ concatenates_S16x128x128x1x64_S16x128x128x1x64_S16x128x128x2x64_d3 rfl rfl rfl
    (ix5 b h w q ch) (ix5 b h w 0 ch) (fun a ha => ?_)).trans ?_
  · match a with
    | ⟨0, _⟩ => rfl
    | ⟨1, _⟩ => rfl
    | ⟨2, _⟩ => rfl
    | ⟨3, _⟩ => exact absurd rfl ha
    | ⟨4, _⟩ => rfl
  rw [val_main_v24_apply, val_main_v25_apply]
  have e : idx_main_v24 (ix5 b h w (0 : Fin 1) ch) = ix4 b h w ch := funext fun a => match a with
    | ⟨0, _⟩ => rfl
    | ⟨1, _⟩ => rfl
    | ⟨2, _⟩ => rfl
    | ⟨3, _⟩ => rfl
  have e' : idx_main_v25 (ix5 b h w (0 : Fin 1) ch) = ix4 b h w ch := funext fun a => match a with
    | ⟨0, _⟩ => rfl
    | ⟨1, _⟩ => rfl
    | ⟨2, _⟩ => rfl
    | ⟨3, _⟩ => rfl
  rw [e, e']

/-- The odd rows' two column parities, joined: the odd-even combination where q = 0, else the odd-odd one. -/
theorem oddRows_apply (x : (⟨S16x128x128x256, .f32⟩ : BufTy).Contents (Elt F)) (b : Fin 16) (h w : Fin 128) (q : Fin 2) (ch : Fin 64) :
    val_main_v29 (F := F) x (ix5 b h w q ch)
      = if q.val = 0 then val_main_v17 (F := F) x (ix4 b h w ch) else val_main_v23 (F := F) x (ix4 b h w ch) := by
  unfold val_main_v29
  refine (unitPair 3 _ _ concatenates_S16x128x128x1x64_S16x128x128x1x64_S16x128x128x2x64_d3 rfl rfl rfl
    (ix5 b h w q ch) (ix5 b h w 0 ch) (fun a ha => ?_)).trans ?_
  · match a with
    | ⟨0, _⟩ => rfl
    | ⟨1, _⟩ => rfl
    | ⟨2, _⟩ => rfl
    | ⟨3, _⟩ => exact absurd rfl ha
    | ⟨4, _⟩ => rfl
  rw [val_main_v27_apply, val_main_v28_apply]
  have e : idx_main_v27 (ix5 b h w (0 : Fin 1) ch) = ix4 b h w ch := funext fun a => match a with
    | ⟨0, _⟩ => rfl
    | ⟨1, _⟩ => rfl
    | ⟨2, _⟩ => rfl
    | ⟨3, _⟩ => rfl
  have e' : idx_main_v28 (ix5 b h w (0 : Fin 1) ch) = ix4 b h w ch := funext fun a => match a with
    | ⟨0, _⟩ => rfl
    | ⟨1, _⟩ => rfl
    | ⟨2, _⟩ => rfl
    | ⟨3, _⟩ => rfl
  rw [e, e']

/-- The two row parities, joined: the even rows' array where p = 0, else the odd rows'. -/
theorem rows_apply (x : (⟨S16x128x128x256, .f32⟩ : BufTy).Contents (Elt F)) (b : Fin 16) (h : Fin 128) (p : Fin 2) (w : Fin 128) (q : Fin 2) (ch : Fin 64) :
    val_main_v32 (F := F) x (ix6 b h p w q ch)
      = if p.val = 0 then val_main_v26 (F := F) x (ix5 b h w q ch) else val_main_v29 (F := F) x (ix5 b h w q ch) := by
  unfold val_main_v32
  refine (unitPair 2 _ _ concatenates_S16x128x1x128x2x64_S16x128x1x128x2x64_S16x128x2x128x2x64_d2 rfl rfl rfl
    (ix6 b h p w q ch) (ix6 b h 0 w q ch) (fun a ha => ?_)).trans ?_
  · match a with
    | ⟨0, _⟩ => rfl
    | ⟨1, _⟩ => rfl
    | ⟨2, _⟩ => exact absurd rfl ha
    | ⟨3, _⟩ => rfl
    | ⟨4, _⟩ => rfl
    | ⟨5, _⟩ => rfl
  rw [val_main_v30_apply, val_main_v31_apply]
  have e : idx_main_v30 (ix6 b h (0 : Fin 1) w q ch) = ix5 b h w q ch := funext fun a => match a with
    | ⟨0, _⟩ => rfl
    | ⟨1, _⟩ => rfl
    | ⟨2, _⟩ => rfl
    | ⟨3, _⟩ => rfl
    | ⟨4, _⟩ => rfl
  have e' : idx_main_v31 (ix6 b h (0 : Fin 1) w q ch) = ix5 b h w q ch := funext fun a => match a with
    | ⟨0, _⟩ => rfl
    | ⟨1, _⟩ => rfl
    | ⟨2, _⟩ => rfl
    | ⟨3, _⟩ => rfl
    | ⟨4, _⟩ => rfl
  rw [e, e']

/-! ## The result -/

/-- THE REFERENCE'S RESULT is the inverse Haar step of its input. -/
theorem result_eq (x : (⟨S16x128x128x256, .f32⟩ : BufTy).Contents (Elt F)) :
    val_main_v33 (F := F) x = haar (B := 16) (H := 128) (R := 256) (by omega) x := by
  funext i
  have i0 : (i 0).val < 16 := (i 0).isLt
  have i1 : (i 1).val < 256 := (i 1).isLt
  have i2 : (i 2).val < 256 := (i 2).isLt
  have i3 : (i 3).val < 64 := (i 3).isLt
  unfold val_main_v33
  refine (shapeCast_apply _ shapeCasts_S16x128x2x128x2x64_S16x256x256x64 i
    (ix6 (⟨(i 0).val, i0⟩ : Fin 16) (⟨(i 1).val / 2, by omega⟩ : Fin 128) (⟨(i 1).val % 2, by omega⟩ : Fin 2)
      (⟨(i 2).val / 2, by omega⟩ : Fin 128) (⟨(i 2).val % 2, by omega⟩ : Fin 2) (⟨(i 3).val, i3⟩ : Fin 64)) ?_).trans ?_
  · rw [Shape.rowMajor_val_six, Shape.rowMajor_val_four]
    show (((((i 0).val * 128 + (i 1).val / 2) * 2 + (i 1).val % 2) * 128 + (i 2).val / 2) * 2 + (i 2).val % 2) * 64 + (i 3).val
      = (((i 0).val * 256 + (i 1).val) * 256 + (i 2).val) * 64 + (i 3).val
    omega
  rw [rows_apply, evenRows_apply, oddRows_apply, ee_apply, eo_apply, oe_apply, oo_apply]
  rfl

end Cert.ReferenceIdeal.RefValue

end
-- ==== Proof.lean ====
/-
  The kernel computes one step of the inverse Haar wavelet transform, [16, 128, 128, 256] → [16, 256, 256, 64], and so
  does the reference.

  The input's last axis holds four sub-bands of 64 channels.  With a, b, c, d the four samples of a position (h, w)
  and channel ch, each multiplied by one half, the output at row 2h + p, column 2w + q, channel ch is
      ((a - b) - c) + d,   ((a + b) - c) - d,   ((a - b) + c) - d,   ((a + b) + c) + d
  for (p, q) = (0, 0), (0, 1), (1, 0), (1, 1)  (`Cert.Haar.haar`).

  The reference forms the four combinations over the whole array, joins the column parities along a new axis after
  the column and the row parities along a new axis after the row, and reshapes [16, 128, 2, 128, 2, 64] to
  [16, 256, 256, 64]; read at an index this is `haar` of the input (`RefValue.result_eq`).  The kernel does the same
  on a block of 16 input rows per grid point, (batch, row block), and writes back the 32 output rows they give; the
  payload read at an index is `haar` of the block (`Payload.payload_apply`), a block of rows of `haar` of the whole
  input is `haar` of the corresponding block of rows (`haar_restrict`), and the 16 × 8 output blocks tile the output,
  so the kernel's result array is `haar` of the input too (`Whole.run`).

  Both programs apply the same operations in the same grouping to the same samples, with the same constant one half:
  the two results are one term, no law of the extended reals is used, and the precondition (every input finite) is
  not needed for the equality.  The idealization rewrote nothing, so `preserves` has nothing to state.  The frames of
  the kernel at both instances are the generated ones; the reference's frame is its generated run with the result
  dropped.
-/
import proofs.«160934_j45045617001000_1_alg».proof.Defs
import proofs.«160934_j45045617001000_1_alg».proof.Proof.Gen.Kernel
import proofs.«160934_j45045617001000_1_alg».proof.Proof.Gen.Kernel.Skeleton
import proofs.«160934_j45045617001000_1_alg».proof.Proof.Gen.Kernel.Launch
import proofs.«160934_j45045617001000_1_alg».proof.Proof.Gen.Kernel.Points
import proofs.«160934_j45045617001000_1_alg».proof.Proof.Gen.Kernel.Frame
import proofs.«160934_j45045617001000_1_alg».proof.Proof.Gen.KernelIdeal
import proofs.«160934_j45045617001000_1_alg».proof.Proof.Gen.KernelIdeal.Skeleton
import proofs.«160934_j45045617001000_1_alg».proof.Proof.Gen.KernelIdeal.Launch
import proofs.«160934_j45045617001000_1_alg».proof.Proof.Gen.KernelIdeal.Points
import proofs.«160934_j45045617001000_1_alg».proof.Proof.Gen.KernelIdeal.Frame
import proofs.«160934_j45045617001000_1_alg».proof.Proof.Gen.ReferenceIdeal
import proofs.«160934_j45045617001000_1_alg».proof.Proof.Gen.Pre_finite_inputs
import proofs.«160934_j45045617001000_1_alg».proof.Proof.Gen.KernelIdeal.Value
import proofs.«160934_j45045617001000_1_alg».proof.Proof.Gen.ReferenceIdeal.Run
import proofs.«160934_j45045617001000_1_alg».proof.Proof.Gen.ReferenceIdeal.Read
import proofs.«160934_j45045617001000_1_alg».proof.Proof.KernelValue
import proofs.«160934_j45045617001000_1_alg».proof.Proof.RefValue
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with their result at the inverse Haar step of the argument; the
    arguments agree, so the results do. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
